-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S8x4096 : Shape := ⟨2, ![8, 4096]⟩
abbrev S4096x8 : Shape := ⟨2, ![4096, 8]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S8x4096 : S_.BroadcastsInDim S8x4096 (![] : Fin 0 → Fin S8x4096.rank)
  reducesTo_S8x4096_S_d0_1 : S8x4096.ReducesTo [0, 1] S_
  bcast_S_S4096x8 : S_.BroadcastsInDim S4096x8 (![] : Fin 0 → Fin S4096x8.rank)
  reducesTo_S4096x8_S_d0_1 : S4096x8.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096x8 .f32) (main_arg5 : FVec F S4096 .f32) (main_v13 : IVec S_ 1) (main_v16 : IVec S8x4096 1) : IVec S_ 1 :=
  let main_c_5 : IVec S_ 1 := constantI S_ 1 1#1
  let main_v17 : IVec S_ 1 := (fun x v => Host.reduce IntOp.andi x v reducesTo_S8x4096_S_d0_1 h_S_) main_v16 main_c_5
  let main_v18 : IVec S_ 1 := andi main_v13 main_v17
  let main_v19 : FVec F S4096x8 .f32 := Host.absf main_arg4
  let main_cst_6 : FVec F S_ .f32 := constant S_ .f32 0x7F800000#32
  let main_v20 : FVec F S4096x8 .f32 := broadcastInDim S4096x8 ![] bcast_S_S4096x8 main_cst_6
  let main_v21 : IVec S4096x8 1 := cmpf .olt main_v19 main_v20
  let main_c_7 : IVec S_ 1 := constantI S_ 1 1#1
  let main_v22 : IVec S_ 1 := (fun x v => Host.reduce IntOp.andi x v reducesTo_S4096x8_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S4x2048x4096 .f32) (main_arg1 : FVec F S4x2048x4096 .f32) (main_arg2 : FVec F S4096x4096 .f32) (main_arg3 : FVec F S8x4096 .f32) (main_arg4 : FVec F S4096x8 .f32) (main_arg5 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4x2048x4096 .f32 := Host.absf main_arg1
  let main_cst_0 : FVec F S_ .f32 := constant S_ .f32 0x7F800000#32
  let main_v5 : FVec F S4x2048x4096 .f32 := broadcastInDim S4x2048x4096 ![] bcast_S_S4x2048x4096 main_cst_0
  let main_v6 : IVec S4x2048x4096 1 := cmpf .olt main_v4 main_v5
  let main_c_1 : IVec S_ 1 := constantI S_ 1 1#1
  let main_v7 : IVec S_ 1 := (fun x v => Host.reduce IntOp.andi x v reducesTo_S4x2048x4096_S_d0_1_2 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S8x4096 .f32 := Host.absf main_arg3
  let main_cst_4 : FVec F S_ .f32 := constant S_ .f32 0x7F800000#32
  let main_v15 : FVec F S8x4096 .f32 := broadcastInDim S8x4096 ![] bcast_S_S8x4096 main_cst_4
  let main_v16 : IVec S8x4096 1 := cmpf .olt main_v14 main_v15
  fn_part1 (F := F) main_arg4 main_arg5 main_v13 main_v16
-- ==== Kernel.lean ====
abbrev S4x2048x4096 : Shape := ⟨3, ![4, 2048, 4096]⟩
abbrev S4096x4096 : Shape := ⟨2, ![4096, 4096]⟩
abbrev S8x4096 : Shape := ⟨2, ![8, 4096]⟩
abbrev S4096x8 : Shape := ⟨2, ![4096, 8]⟩
abbrev S4096 : Shape := ⟨1, ![4096]⟩
abbrev S4096x1 : Shape := ⟨2, ![4096, 1]⟩
abbrev S256x4096 : Shape := ⟨2, ![256, 4096]⟩
abbrev S256x8 : Shape := ⟨2, ![256, 8]⟩
abbrev S256x1 : Shape := ⟨2, ![256, 1]⟩
abbrev S256 : Shape := ⟨1, ![256]⟩
abbrev S1x4096 : Shape := ⟨2, ![1, 4096]⟩
abbrev S8192x4096 : Shape := ⟨2, ![8192, 4096]⟩

abbrev nBuf : Space → Nat
  | .hbm => 15
  | .vmem => 18
  | .smem => 0
  | _ => 0

abbrev bufTy : (tb : Table) → Fin (tcTables nBuf tb) → BufTy
  | .hbm, ⟨0, _⟩ => ⟨S4x2048x4096, .f32⟩
  | .hbm, ⟨1, _⟩ => ⟨S4x2048x4096, .f32⟩
  | .hbm, ⟨2, _⟩ => ⟨S4096x4096, .f32⟩
  | .hbm, ⟨3, _⟩ => ⟨S8x4096, .f32⟩
  | .hbm, ⟨4, _⟩ => ⟨S4096x8, .f32⟩
  | .hbm, ⟨5, _⟩ => ⟨S4096, .f32⟩
  | .hbm, ⟨6, _⟩ => ⟨S4096x1, .f32⟩
  | .hbm, ⟨7, _⟩ => ⟨S4096x1, .f32⟩
  | .hbm, ⟨8, _⟩ => ⟨S1x4096, .f32⟩
  | .hbm, ⟨9, _⟩ => ⟨S8192x4096, .f32⟩
  | .hbm, ⟨10, _⟩ => ⟨S8192x4096, .f32⟩
  | .hbm, ⟨11, _⟩ => ⟨S4096x8, .f32⟩
  | .hbm, ⟨12, _⟩ => ⟨S8x4096, .f32⟩
  | .hbm, ⟨13, _⟩ => ⟨S8192x4096, .f32⟩
  | .hbm, ⟨14, _⟩ => ⟨S4x2048x4096, .f32⟩
  | .local _ .vmem, ⟨0, _⟩ => ⟨S256x4096, .f32⟩
  | .local _ .vmem, ⟨1, _⟩ => ⟨S256x4096, .f32⟩
  | .local _ .vmem, ⟨2, _⟩ => ⟨S8x4096, .f32⟩
  | .local _ .vmem, ⟨3, _⟩ => ⟨S256x8, .f32⟩
  | .local _ .vmem, ⟨4, _⟩ => ⟨S256x8, .f32⟩
  | .local _ .vmem, ⟨5, _⟩ => ⟨S256x1, .f32⟩
  | .local _ .vmem, ⟨6, _⟩ => ⟨S256x1, .f32⟩
  | .local _ .vmem, ⟨7, _⟩ => ⟨S256x1, .f32⟩
  | .local _ .vmem, ⟨8, _⟩ => ⟨S256x1, .f32⟩
  | .local _ .vmem, ⟨9, _⟩ => ⟨S256x4096, .f32⟩
  | .local _ .vmem, ⟨10, _⟩ => ⟨S256x4096, .f32⟩
  | .local _ .vmem, ⟨11, _⟩ => ⟨S256x4096, .f32⟩
  | .local _ .vmem, ⟨12, _⟩ => ⟨S256x4096, .f32⟩
  | .local _ .vmem, ⟨13, _⟩ => ⟨S4096x8, .f32⟩
  | .local _ .vmem, ⟨14, _⟩ => ⟨S8x4096, .f32⟩
  | .local _ .vmem, ⟨15, _⟩ => ⟨S1x4096, .f32⟩
  | .local _ .vmem, ⟨16, _⟩ => ⟨S256x4096, .f32⟩
  | .local _ .vmem, ⟨17, _⟩ => ⟨S256x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S4096x8 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x4096 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x4096 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S4096_S4096x1 : S4096.ShapeCasts S4096x1
  inb_S256x4096_S256x4096_0_0 : ∀ a, (![0, 0] : Fin 2 → Nat) a + S256x4096.size a ≤ S256x4096.size a
  h_S256x4096 : 0 < S256x4096.numel
  inb_S8x4096_S8x4096_0_0 : ∀ a, (![0, 0] : Fin 2 → Nat) a + S8x4096.size a ≤ S8x4096.size a
  h_S8x4096 : 0 < S8x4096.numel
  bitsLt_bf16_f32 : FTy.bits .bf16 < FTy.bits .f32
  inb_S256x8_S256x8_0_0 : ∀ a, (![0, 0] : Fin 2 → Nat) a + S256x8.size a ≤ S256x8.size a
  h_S256x8 : 0 < S256x8.numel
  reduces_S256x4096_S256 : S256x4096.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  shapeCasts_S4096x1_S1x4096 : S4096x1.ShapeCasts S1x4096
  shapeCasts_S4x2048x4096_S8192x4096 : S4x2048x4096.ShapeCasts S8192x4096
  transposes_S8x4096_S4096x8_1_0 : S8x4096.Transposes [1, 0] S4096x8
  transposes_S4096x8_S8x4096_1_0 : S4096x8.Transposes [1, 0] S8x4096
  shapeCasts_S256x4096_S256x4096 : S256x4096.ShapeCasts S256x4096
  inb_S4096x8_S4096x8_0_0 : ∀ a, (![0, 0] : Fin 2 → Nat) a + S4096x8.size a ≤ S4096x8.size a
  h_S4096x8 : 0 < S4096x8.numel
  shapeCasts_S4096x8_S4096x8 : S4096x8.ShapeCasts S4096x8
  shapeCasts_S8x4096_S8x4096 : S8x4096.ShapeCasts S8x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  shapeCasts_S8192x4096_S4x2048x4096 : S8192x4096.ShapeCasts S4x2048x4096
  dot_S256x8_S8x4096_S256x4096_1_0_0_1_n_n_wf : DotDims.WF S256x8 S8x4096 S256x4096 [1] [0] [0] [1] [] []
  dot_S256x4096_S4096x8_S256x8_1_0_0_1_n_n_wf : DotDims.WF S256x4096 S4096x8 S256x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x4096.size a ≤ S8x4096.size a
  hwx0_1 : ∀ i : grid0.Coords, EltTy.bits .f32 = 32 ∨ (Rect.block (s := S8x4096) S8x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x8.size a ≤ S4096x8.size a
  hwx0_2 : ∀ i : grid0.Coords, EltTy.bits .f32 = 32 ∨ (Rect.block (s := S4096x8) S256x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S4096x1.size a
  hwx0_3 : ∀ i : grid0.Coords, EltTy.bits .f32 = 32 ∨ (Rect.block (s := S4096x1) S256x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S4096x1.size a
  hwx0_4 : ∀ i : grid0.Coords, EltTy.bits .f32 = 32 ∨ (Rect.block (s := S4096x1) S256x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S8192x4096.size a
  hwx1_0 : ∀ i : grid1.Coords, EltTy.bits .f32 = 32 ∨ (Rect.block (s := S8192x4096) S256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x4096.size a ≤ S8192x4096.size a
  hwx1_1 : ∀ i : grid1.Coords, EltTy.bits .f32 = 32 ∨ (Rect.block (s := S8192x4096) S256x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4096x8.size a ≤ S4096x8.size a
  hwx1_2 : ∀ i : grid1.Coords, EltTy.bits .f32 = 32 ∨ (Rect.block (s := S4096x8) S4096x8.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S8x4096.size a ≤ S8x4096.size a
  hwx1_3 : ∀ i : grid1.Coords, EltTy.bits .f32 = 32 ∨ (Rect.block (s := S8x4096) S8x4096.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x4096.size a ≤ S1x4096.size a
  hwx1_4 : ∀ i : grid1.Coords, EltTy.bits .f32 = 32 ∨ (Rect.block (s := S1x4096) S1x4096.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x4096.size a ≤ S8192x4096.size a
  hwx1_5 : ∀ i : grid1.Coords, EltTy.bits .f32 = 32 ∨ (Rect.block (s := S8192x4096) S256x4096.size (cc1_transform_5 i) (hinb1_5 i)).WholeWords (EltTy.packing .f32)

variable [Facts₀]

def dot_S256x8_S8x4096_S256x4096_1_0_0_1_n_n : DotDims S256x8 S8x4096 S256x4096 where
  lhsContracting := [1]
  rhsContracting := [0]
  lhsNonContracting := [0]
  rhsNonContracting := [1]
  lhsBatch := []
  rhsBatch := []
  wf := dot_S256x8_S8x4096_S256x4096_1_0_0_1_n_n_wf
def dot_S256x4096_S4096x8_S256x8_1_0_0_1_n_n : DotDims S256x4096 S4096x8 S256x8 where
  lhsContracting := [1]
  rhsContracting := [0]
  lhsNonContracting := [0]
  rhsNonContracting := [1]
  lhsBatch := []
  rhsBatch := []
  wf := dot_S256x4096_S4096x8_S256x8_1_0_0_1_n_n_wf

abbrev win0_0 : Pipeline.Window sig grid0 :=
  Pipeline.Window.ofSpec (Memref.whole main_arg2) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S8x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S256x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v3) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S256x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S4096x8.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S8x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S1x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S256x4096.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S8x4096 : Shape := ⟨2, ![8, 4096]⟩
abbrev S4096x8 : Shape := ⟨2, ![4096, 8]⟩
abbrev S4096 : Shape := ⟨1, ![4096]⟩
abbrev S4x2048x8 : Shape := ⟨3, ![4, 2048, 8]⟩
abbrev S_ : Shape := ⟨0, ![]⟩
abbrev S1x1x4096 : Shape := ⟨3, ![1, 1, 4096]⟩

abbrev nBuf : Space → Nat
  | .hbm => 28
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4x2048x4096, .f32⟩
  | .hbm, ⟨2, _⟩ => ⟨S4096x4096, .f32⟩
  | .hbm, ⟨3, _⟩ => ⟨S8x4096, .f32⟩
  | .hbm, ⟨4, _⟩ => ⟨S4096x8, .f32⟩
  | .hbm, ⟨5, _⟩ => ⟨S4096, .f32⟩
  | .hbm, ⟨6, _⟩ => ⟨S4x2048x8, .f32⟩
  | .hbm, ⟨7, _⟩ => ⟨S4x2048x4096, .f32⟩
  | .hbm, ⟨8, _⟩ => ⟨S_, .f32⟩
  | .hbm, ⟨9, _⟩ => ⟨S4x2048x4096, .f32⟩
  | .hbm, ⟨10, _⟩ => ⟨S4x2048x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096, .f32⟩
  | .hbm, ⟨24, _⟩ => ⟨S4x2048x4096, .f32⟩
  | .hbm, ⟨25, _⟩ => ⟨S1x1x4096, .f32⟩
  | .hbm, ⟨26, _⟩ => ⟨S4x2048x4096, .f32⟩
  | .hbm, ⟨27, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_v0 : Ref sig .tc := ⟨.hbm, 16, rfl⟩
abbrev main_call0_cst : Ref sig .tc := ⟨.hbm, 17, rfl⟩
abbrev main_call0_v1 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩

abbrev nD : Nat := 1
abbrev τ : Topo := Topo.v7x

variable {F : FTy → Type} [FloatOps F]

class Facts₀ : Prop where
  bcast_S_S4x2048x4096 : S_.BroadcastsInDim S4x2048x4096 (![] : Fin 0 → Fin S4x2048x4096.rank)
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S8x4096_S4x2048x8_2_1_01_0_n_n_wf : DotDims.WF S4x2048x4096 S8x4096 S4x2048x8 [2] [1] [0, 1] [0] [] []
  dot_S4x2048x8_S4096x8_S4x2048x4096_2_1_01_0_n_n_wf : DotDims.WF S4x2048x8 S4096x8 S4x2048x4096 [2] [1] [0, 1] [0] [] []
  dot_S4096x8_S8x4096_S4096x4096_1_0_0_1_n_n_wf : DotDims.WF S4096x8 S8x4096 S4096x4096 [1] [0] [0] [1] [] []

variable [Facts₀]

def dot_S4x2048x4096_S8x4096_S4x2048x8_2_1_01_0_n_n : DotDims S4x2048x4096 S8x4096 S4x2048x8 where
  lhsContracting := [2]
  rhsContracting := [1]
  lhsNonContracting := [0, 1]
  rhsNonContracting := [0]
  lhsBatch := []
  rhsBatch := []
  wf := dot_S4x2048x4096_S8x4096_S4x2048x8_2_1_01_0_n_n_wf
def dot_S4x2048x8_S4096x8_S4x2048x4096_2_1_01_0_n_n : DotDims S4x2048x8 S4096x8 S4x2048x4096 where
  lhsContracting := [2]
  rhsContracting := [1]
  lhsNonContracting := [0, 1]
  rhsNonContracting := [0]
  lhsBatch := []
  rhsBatch := []
  wf := dot_S4x2048x8_S4096x8_S4x2048x4096_2_1_01_0_n_n_wf
def dot_S4096x8_S8x4096_S4096x4096_1_0_0_1_n_n : DotDims S4096x8 S8x4096 S4096x4096 where
  lhsContracting := [1]
  rhsContracting := [0]
  lhsNonContracting := [0]
  rhsNonContracting := [1]
  lhsBatch := []
  rhsBatch := []
  wf := dot_S4096x8_S8x4096_S4096x4096_1_0_0_1_n_n_wf

class Facts : Prop extends Facts₀ where

variable [Facts]
-- ==== Proof.Spec.lean ====
/-
  The mathematics both programs compute, stated once over plain rows of extended reals.

  A low-rank adapter of rank 8 sits on a 4096 x 4096 linear layer.  With A the 8 x 4096 down
  projection, B the 4096 x 8 up projection and gain 2:
    * the merged weight's row o is   W[o, i] + (sum_r B[o, r] * A[r, i]) * 2;
    * channel o's scale is           g[o] / (sqrt (sum_i merged[o, i]^2) + eps),
      the magnitude over the row's Euclidean norm, eps the f32 nearest 1e-8;
    * the adapter's output for an activation row x is  sum_r (sum_i x[i] * A[r, i]) * B[o, r];
    * the result is                  (y + adapter * 2) * scale.
  Every sum is a finite sum in the commutative monoid of extended reals, so its order and grouping
  are immaterial; no other law is used, and hence nothing here needs the inputs to be finite.
-/
import Idealize.ShloMosaic.PureOps.Ideal
import Idealize.ShloMosaic.Lib.ValueIdx

noncomputable section

namespace Cert.Dora

open Idealize.ShloMosaic

/-- The adapter's gain alpha / rank = 16 / 8, as the f32 pattern both programs print. -/
def gain : EReal := Ideal.ofBits .f32 0x40000000#32

/-- The norm's guard, the f32 nearest 1e-8, as the pattern both programs print. -/
def eps : EReal := Ideal.ofBits .f32 0x322BCC77#32

/-- Entry i of one row of the merged weight: the base row plus the gain times the rank-8 product. -/
def mergedRow (w : Fin 4096 → EReal) (a : Fin 8 → Fin 4096 → EReal) (b : Fin 8 → EReal) (i : Fin 4096) : EReal :=
  w i + (∑ r : Fin 8, b r * a r i) * gain

/-- A channel's scale: its magnitude over the guarded Euclidean norm of its merged row. -/
def chanScale (w : Fin 4096 → EReal) (a : Fin 8 → Fin 4096 → EReal) (b : Fin 8 → EReal) (g : EReal) : EReal :=
  Ideal.div g (Ideal.sqrt (∑ i : Fin 4096, mergedRow w a b i * mergedRow w a b i) + eps)

/-- The adapter applied to one activation row, read at one output channel: down to rank 8, then up. -/
def adapter (x : Fin 4096 → EReal) (a : Fin 8 → Fin 4096 → EReal) (b : Fin 8 → EReal) : EReal :=
  ∑ r : Fin 8, (∑ i : Fin 4096, x i * a r i) * b r

/-- One entry of the result: the base output plus the gained adapter output, times the channel's scale. -/
def entry (y lr sc : EReal) : EReal := (y + lr * gain) * sc

end Cert.Dora

/-! ## The result over the whole arrays -/

namespace Cert.Dora

open Idealize.ShloMosaic Idealize.ShloMosaic.ValueIdx

/-- The result array as one function of the six argument arrays: entry (p, s, o) reads activation row
    (p, s), base-output entry (p, s, o), and row o of the weight, of the up projection and of the magnitude. -/
def result (x y : (⟨3, ![4, 2048, 4096]⟩ : Shape).Idx → EReal) (w : (⟨2, ![4096, 4096]⟩ : Shape).Idx → EReal)
    (a : (⟨2, ![8, 4096]⟩ : Shape).Idx → EReal) (b : (⟨2, ![4096, 8]⟩ : Shape).Idx → EReal)
    (g : (⟨1, ![4096]⟩ : Shape).Idx → EReal) : (⟨3, ![4, 2048, 4096]⟩ : Shape).Idx → EReal := fun j =>
  entry (y j)
    (adapter (fun i => x (ix3 (j 0) (j 1) i)) (fun r i => a (ix2 r i)) (fun r => b (ix2 (j 2) r)))
    (chanScale (fun i => w (ix2 (j 2) i)) (fun r i => a (ix2 r i)) (fun r => b (ix2 (j 2) r)) (g (ix1 (j 2))))

end Cert.Dora

end
-- ==== Proof.RefValue.lean ====
/-
  The reference computes the specification: read one operation at a time, its result at entry
  (p, s, o) is the base output plus twice the rank-8 adapter of activation row (p, s), times channel o's
  magnitude over the guarded norm of row o of the merged weight.  The only work is to see that the
  operand indices the host operations read are the rows and columns the specification names.
-/
import proofs.«155227_j14869176779243_1_alg».proof.Proof.Gen.ReferenceIdeal.Run
import proofs.«155227_j14869176779243_1_alg».proof.Proof.Gen.ReferenceIdeal.Read
import proofs.«155227_j14869176779243_1_alg».proof.Proof.Spec

noncomputable section

namespace Cert.Dora.Ref

open Cert.ReferenceIdeal Cert.ReferenceIdeal.Read Idealize.ShloMosaic Idealize.ShloMosaic.ValueIdx

/-! ## Which operand entries each stage reads -/

/-- The first contraction, read from inside the second: entry (p, s, r) of x · Aᵀ reads x[p, s, k]. -/
theorem act_idx (j : S4x2048x4096.Idx) (r : Fin 8) (k : Fin 4096) :
    lidx_main_v0 (lidx_main_v1 j r) k = ix3 (j 0) (j 1) k :=
  funext fun d => Fin.ext (by match d with | ⟨0, _⟩ => rfl | ⟨1, _⟩ => rfl | ⟨2, _⟩ => rfl)

/-- … and A[r, k]. -/
theorem down_idx (j : S4x2048x4096.Idx) (r : Fin 8) (k : Fin 4096) :
    ridx_main_v0 (lidx_main_v1 j r) k = ix2 r k :=
  funext fun d => Fin.ext (by match d with | ⟨0, _⟩ => rfl | ⟨1, _⟩ => rfl)

/-- The second contraction at (p, s, o) reads B[o, r]. -/
theorem up_idx (j : S4x2048x4096.Idx) (r : Fin 8) : ridx_main_v1 j r = ix2 (j 2) r :=
  funext fun d => Fin.ext (by match d with | ⟨0, _⟩ => rfl | ⟨1, _⟩ => rfl)

/-- The two broadcasts of the scale read channel o of it. -/
theorem chan_idx (j : S4x2048x4096.Idx) : idx_main_v13 (idx_main_v14 j) = ix1 (j 2) :=
  funext fun d => Fin.ext (by match d with | ⟨0, _⟩ => rfl)

/-- The row sum for channel o reads entry (o, k) of the squared merged weight, -/
theorem row_idx (j : S4x2048x4096.Idx) (k : Fin 4096) :
    idx_main_call0_v1 (idx_main_v13 (idx_main_v14 j)) k = ix2 (j 2) k :=
  funext fun d => Fin.ext (by match d with | ⟨0, _⟩ => rfl | ⟨1, _⟩ => rfl)

/-- whose rank-8 product reads B[o, r] -/
theorem row_up_idx (j : S4x2048x4096.Idx) (k : Fin 4096) (r : Fin 8) :
    lidx_main_v4 (idx_main_call0_v1 (idx_main_v13 (idx_main_v14 j)) k) r = ix2 (j 2) r :=
  funext fun d => Fin.ext (by match d with | ⟨0, _⟩ => rfl | ⟨1, _⟩ => rfl)

/-- and A[r, k]. -/
theorem row_down_idx (j : S4x2048x4096.Idx) (k : Fin 4096) (r : Fin 8) :
    ridx_main_v4 (idx_main_call0_v1 (idx_main_v13 (idx_main_v14 j)) k) r = ix2 r k :=
  funext fun d => Fin.ext (by match d with | ⟨0, _⟩ => rfl | ⟨1, _⟩ => rfl)

/-! ## The reference's last stage is the specification -/

/-- Stage by stage the reference's result at an entry is the specification's: the host's sums carry an
    explicit zero initial value, which is dropped; every other operation is the specification's own. -/
theorem result_eq (x y : S4x2048x4096.Idx → EReal) (w : S4096x4096.Idx → EReal) (a : S8x4096.Idx → EReal)
    (b : S4096x8.Idx → EReal) (g : S4096.Idx → EReal) :
    val_main_v15 (F := Ideal) x y w a b g = result x y w a b g := by
  funext j
  simp only [val_main_v15_apply, val_main_v12_apply, val_main_v3_apply, val_main_v1_apply, val_main_v2_apply, val_main_cst_apply,
    val_main_v14_apply, val_main_v13_apply, val_main_v11_apply, val_main_v10_apply, val_main_v8_apply, val_main_call0_v1_apply,
    val_main_v9_apply, val_main_cst_1_apply, val_main_call0_cst_apply, val_main_v0_apply, val_main_call0_v0_apply, val_main_v7_apply,
    val_main_v6_apply, val_main_v4_apply, val_main_v5_apply, val_main_cst_0_apply]
  simp only [act_idx, down_idx, up_idx, row_up_idx, row_down_idx]
  simp only [row_idx, chan_idx]
  simp only [Ideal.mulf_def, Ideal.addf_def, Ideal.hostDivf_def, Ideal.hostUnary_sqrt_def, Ideal.ofBits_def,
    Ideal.ofBits_zero_f32, zero_add]
  rfl

end Cert.Dora.Ref

end
-- ==== Proof.Products.lean ====
/-
  The kernels' two matrix products read at an entry.  Both contract the left factor's columns against
  the right factor's rows and accumulate from zero, so over the extended reals entry (p, c) is the finite
  sum of l[p, k] * r[k, c]: the rank-8 product (256 x 8 by 8 x 4096, used for B·A in the norm kernel and
  for (x·Aᵀ)·Bᵀ in the main kernel) and the projection down to rank 8 (256 x 4096 by 4096 x 8).
-/
import proofs.«155227_j14869176779243_1_alg».proof.Proof.Gen.KernelIdeal
import Idealize.ShloMosaic.Lib.ValueIdx
import Idealize.ShloMosaic.PureOps.Ideal.Laws

noncomputable section

namespace Cert.Dora.Products

open Cert.KernelIdeal Cert.KernelIdeal.Gen Idealize.ShloMosaic Idealize.ShloMosaic.ValueIdx

/-! ## The rank-8 product: 256 x 8 by 8 x 4096 -/

theorem rank8_lhs_0 (i : S256x4096.Idx) (q : dot_S256x8_S8x4096_S256x4096_1_0_0_1_n_n.contr.Idx) :
    (dot_S256x8_S8x4096_S256x4096_1_0_0_1_n_n.lhsIdx i q 0).val = (i 0).val := by
  unfold DotDims.lhsIdx
  rw [dif_neg (show ¬(0 : Fin S256x8.rank) ∈ dot_S256x8_S8x4096_S256x4096_1_0_0_1_n_n.lhsBatch by decide), dif_pos (show (0 : Fin S256x8.rank) ∈ dot_S256x8_S8x4096_S256x4096_1_0_0_1_n_n.lhsNonContracting by decide)]
  rfl
theorem rank8_lhs_1 (i : S256x4096.Idx) (q : dot_S256x8_S8x4096_S256x4096_1_0_0_1_n_n.contr.Idx) :
    (dot_S256x8_S8x4096_S256x4096_1_0_0_1_n_n.lhsIdx i q 1).val = (q ⟨0, by decide⟩).val :=
  dot_S256x8_S8x4096_S256x4096_1_0_0_1_n_n.lhsIdx_val_of_single rfl i q
theorem rank8_rhs_0 (i : S256x4096.Idx) (q : dot_S256x8_S8x4096_S256x4096_1_0_0_1_n_n.contr.Idx) :
    (dot_S256x8_S8x4096_S256x4096_1_0_0_1_n_n.rhsIdx i q 0).val = (q ⟨0, by decide⟩).val :=
  dot_S256x8_S8x4096_S256x4096_1_0_0_1_n_n.rhsIdx_val_of_single rfl i q
theorem rank8_rhs_1 (i : S256x4096.Idx) (q : dot_S256x8_S8x4096_S256x4096_1_0_0_1_n_n.contr.Idx) :
    (dot_S256x8_S8x4096_S256x4096_1_0_0_1_n_n.rhsIdx i q 1).val = (i 1).val := by
  unfold DotDims.rhsIdx
  rw [dif_neg (show ¬(1 : Fin S8x4096.rank) ∈ dot_S256x8_S8x4096_S256x4096_1_0_0_1_n_n.rhsBatch by decide), dif_pos (show (1 : Fin S8x4096.rank) ∈ dot_S256x8_S8x4096_S256x4096_1_0_0_1_n_n.rhsNonContracting by decide)]
  rfl

/-- Entry (p, c) of the product accumulated from zero is the plain sum over the contracted index of
    row p of the left factor against column c of the right. -/
theorem rank8_apply (l : FVec Ideal S256x8 .bf16) (r : FVec Ideal S8x4096 .bf16) (p : Fin 256) (c : Fin 4096) :
    matmul dot_S256x8_S8x4096_S256x4096_1_0_0_1_n_n none l r (constant (F := Ideal) S256x4096 .f32 0x00000000#32) (ix2 p c)
      = ∑ k : Fin 8, l (ix2 p k) * r (ix2 k c) := by
  simp only [matmul]
  rw [Ideal.matmul_constant_zero_apply, ← Equiv.sum_comp (ValueIdx.contrEquiv1 dot_S256x8_S8x4096_S256x4096_1_0_0_1_n_n 8 rfl rfl).symm]
  refine Finset.sum_congr rfl fun k _ => ?_
  have hk := ValueIdx.contrEquiv1_symm_val dot_S256x8_S8x4096_S256x4096_1_0_0_1_n_n 8 rfl rfl k
  have el : dot_S256x8_S8x4096_S256x4096_1_0_0_1_n_n.lhsIdx (ix2 p c) ((ValueIdx.contrEquiv1 dot_S256x8_S8x4096_S256x4096_1_0_0_1_n_n 8 rfl rfl).symm k) = ix2 p k := funext fun a => Fin.ext (by
    match a with
    | ⟨0, _⟩ => exact rank8_lhs_0 _ _
    | ⟨1, _⟩ => exact (rank8_lhs_1 _ _).trans hk)
  have er : dot_S256x8_S8x4096_S256x4096_1_0_0_1_n_n.rhsIdx (ix2 p c) ((ValueIdx.contrEquiv1 dot_S256x8_S8x4096_S256x4096_1_0_0_1_n_n 8 rfl rfl).symm k) = ix2 k c := funext fun a => Fin.ext (by
    match a with
    | ⟨0, _⟩ => exact (rank8_rhs_0 _ _).trans hk
    | ⟨1, _⟩ => exact rank8_rhs_1 _ _)
  rw [el, er]

/-! ## The projection to rank 8: 256 x 4096 by 4096 x 8 -/

theorem project_lhs_0 (i : S256x8.Idx) (q : dot_S256x4096_S4096x8_S256x8_1_0_0_1_n_n.contr.Idx) :
    (dot_S256x4096_S4096x8_S256x8_1_0_0_1_n_n.lhsIdx i q 0).val = (i 0).val := by
  unfold DotDims.lhsIdx
  rw [dif_neg (show ¬(0 : Fin S256x4096.rank) ∈ dot_S256x4096_S4096x8_S256x8_1_0_0_1_n_n.lhsBatch by decide), dif_pos (show (0 : Fin S256x4096.rank) ∈ dot_S256x4096_S4096x8_S256x8_1_0_0_1_n_n.lhsNonContracting by decide)]
  rfl
theorem project_lhs_1 (i : S256x8.Idx) (q : dot_S256x4096_S4096x8_S256x8_1_0_0_1_n_n.contr.Idx) :
    (dot_S256x4096_S4096x8_S256x8_1_0_0_1_n_n.lhsIdx i q 1).val = (q ⟨0, by decide⟩).val :=
  dot_S256x4096_S4096x8_S256x8_1_0_0_1_n_n.lhsIdx_val_of_single rfl i q
theorem project_rhs_0 (i : S256x8.Idx) (q : dot_S256x4096_S4096x8_S256x8_1_0_0_1_n_n.contr.Idx) :
    (dot_S256x4096_S4096x8_S256x8_1_0_0_1_n_n.rhsIdx i q 0).val = (q ⟨0, by decide⟩).val :=
  dot_S256x4096_S4096x8_S256x8_1_0_0_1_n_n.rhsIdx_val_of_single rfl i q
theorem project_rhs_1 (i : S256x8.Idx) (q : dot_S256x4096_S4096x8_S256x8_1_0_0_1_n_n.contr.Idx) :
    (dot_S256x4096_S4096x8_S256x8_1_0_0_1_n_n.rhsIdx i q 1).val = (i 1).val := by
  unfold DotDims.rhsIdx
  rw [dif_neg (show ¬(1 : Fin S4096x8.rank) ∈ dot_S256x4096_S4096x8_S256x8_1_0_0_1_n_n.rhsBatch by decide), dif_pos (show (1 : Fin S4096x8.rank) ∈ dot_S256x4096_S4096x8_S256x8_1_0_0_1_n_n.rhsNonContracting by decide)]
  rfl

/-- Entry (p, c) of the product accumulated from zero is the plain sum over the contracted index of
    row p of the left factor against column c of the right. -/
theorem project_apply (l : FVec Ideal S256x4096 .bf16) (r : FVec Ideal S4096x8 .bf16) (p : Fin 256) (c : Fin 8) :
    matmul dot_S256x4096_S4096x8_S256x8_1_0_0_1_n_n none l r (constant (F := Ideal) S256x8 .f32 0x00000000#32) (ix2 p c)
      = ∑ k : Fin 4096, l (ix2 p k) * r (ix2 k c) := by
  simp only [matmul]
  rw [Ideal.matmul_constant_zero_apply, ← Equiv.sum_comp (ValueIdx.contrEquiv1 dot_S256x4096_S4096x8_S256x8_1_0_0_1_n_n 4096 rfl rfl).symm]
  refine Finset.sum_congr rfl fun k _ => ?_
  have hk := ValueIdx.contrEquiv1_symm_val dot_S256x4096_S4096x8_S256x8_1_0_0_1_n_n 4096 rfl rfl k
  have el : dot_S256x4096_S4096x8_S256x8_1_0_0_1_n_n.lhsIdx (ix2 p c) ((ValueIdx.contrEquiv1 dot_S256x4096_S4096x8_S256x8_1_0_0_1_n_n 4096 rfl rfl).symm k) = ix2 p k := funext fun a => Fin.ext (by
    match a with
    | ⟨0, _⟩ => exact project_lhs_0 _ _
    | ⟨1, _⟩ => exact (project_lhs_1 _ _).trans hk)
  have er : dot_S256x4096_S4096x8_S256x8_1_0_0_1_n_n.rhsIdx (ix2 p c) ((ValueIdx.contrEquiv1 dot_S256x4096_S4096x8_S256x8_1_0_0_1_n_n 4096 rfl rfl).symm k) = ix2 k c := funext fun a => Fin.ext (by
    match a with
    | ⟨0, _⟩ => exact (project_rhs_0 _ _).trans hk
    | ⟨1, _⟩ => exact project_rhs_1 _ _)
  rw [el, er]

end Cert.Dora.Products

end
-- ==== Proof.NormBody.lean ====
/-
  The norm kernel's body at one entry.  On a block of 256 weight rows it forms the merged rows, sums
  their squares along the row, and divides the block's magnitudes by the guarded square roots: entry
  (p, 0) of what it stores is the channel scale of block row p.
-/
import proofs.«155227_j14869176779243_1_alg».proof.Proof.Gen.KernelIdeal.Skeleton
import proofs.«155227_j14869176779243_1_alg».proof.Proof.Spec
import proofs.«155227_j14869176779243_1_alg».proof.Proof.Products
import Idealize.ShloMosaic.Lib.Pipeline.Value

noncomputable section

namespace Cert.Dora.NormBody

open Cert.KernelIdeal Cert.KernelIdeal.Gen Idealize.ShloMosaic Idealize.ShloMosaic.ValueIdx

/-- The index the lane sum at row p reads for column i is (p, i). -/
theorem lane_idx (p : Fin 256) (i : Fin 4096) : reduces_S256x4096_S256.lift (ix1 p) i = ix2 p i :=
  funext fun a => Fin.ext (by match a with | ⟨0, _⟩ => rfl | ⟨1, _⟩ => rfl)

/-- The lane sum of a 256 x 4096 block at row p is the finite sum of that row's entries. -/
theorem lane_sum (src : FVec Ideal S256x4096 .f32) (hφ : FKind.Formats .f32)
    (hacc : (0x00000000#32 : BitVec 32) = 0x00000000#32) (p : Fin 256) :
    multiReduction .add [1] S256 src 0x00000000#32 reduces_S256x4096_S256 hφ hacc (ix1 p) = ∑ i : Fin 4096, src (ix2 p i) :=
  (Ideal.multiReduction_add_single src 0x00000000#32 reduces_S256x4096_S256 hφ hacc (ix1 p)).trans
    (Finset.sum_congr rfl fun i _ => congrArg src (lane_idx p i))

/-- The stored value at (p, q): magnitude p over sqrt(sum of squares of merged row p) + eps.  The
    column of 256 sums is re-laid as 256 x 1 (same row-major position), and the products' operands are
    the loaded blocks themselves since a change of float format is the identity here. -/
theorem pay_apply (x0 : Vec Ideal S256x4096 .f32) (x1 : Vec Ideal S8x4096 .f32) (x2 : Vec Ideal S256x8 .f32)
    (x3 : Vec Ideal S256x1 .f32) (p : Fin 256) (q : Fin 1) :
    k0_pay1 (F := Ideal) x0 x1 x2 x3 (ix2 p q)
      = chanScale (fun i => x0 (ix2 p i)) (fun r i => x1 (ix2 r i)) (fun r => x2 (ix2 p r)) (x3 (ix2 p q)) := by
  unfold k0_pay1
  dsimp only
  rw [ValueIdx.divf_apply, ValueIdx.addf_apply, shapeCast_self]
  show Ideal.div (x3 (ix2 p q)) (Ideal.sqrt (shapeCast S256x1 _ shapeCasts_S256_S256x1 (ix2 p q)) + _) = _
  rw [shapeCast_apply _ shapeCasts_S256_S256x1 (ix2 p q) (ix1 p)
    (by rw [Shape.rowMajor_val_one, Shape.rowMajor_val_two]; show p.val = p.val * 1 + q.val; have := q.isLt; omega)]
  unfold chanScale
  refine congrArg (fun s => Ideal.div (x3 (ix2 p q)) (Ideal.sqrt s + _))
    ((lane_sum _ _ _ p).trans (Finset.sum_congr rfl fun i _ => ?_))
  rw [ValueIdx.mulf_apply, ValueIdx.addf_apply, ValueIdx.mulf_apply, Products.rank8_apply]
  rfl

end Cert.Dora.NormBody

end
-- ==== Proof.NormArray.lean ====
/-
  The norm region's output array.  The grid's 16 points each write back a 256 x 1 block of channel
  scales computed from 256 rows of the weight, the same 256 rows of the up projection and of the
  magnitude column, and the whole down projection.  Point t's blocks are rows 256 t … 256 t + 255, so
  what it writes is block t of ONE column: channel o's scale from row o of each array.  The 16 blocks
  tile the 4096 rows, so after the region the array is that column, whatever it held before.
  All of it is stated at the contents the region is entered with, left as a parameter.
-/
import proofs.«155227_j14869176779243_1_alg».proof.Proof.Gen.KernelIdeal.Frame
import proofs.«155227_j14869176779243_1_alg».proof.Proof.NormBody
import Idealize.ShloMosaic.Lib.Pipeline.Value

noncomputable section

open Idealize.ShloMosaic Idealize.ShloMosaic.TcCoe Idealize.SL.Sem
open Idealize.ShloMosaic.Pipeline (Dat)

namespace Cert.Dora.NormArray

open Cert.KernelIdeal Cert.KernelIdeal.Gen Idealize.ShloMosaic.ValueIdx

variable (V : (c : Dev nD) → (b : Ref sig .tc) → Buf (Elt Ideal) ((c : Thread nD τ).loc b))

theorem zero_off : (![0, 0] : Fin 2 → Nat) = fun _ => 0 := funext fun a => by fin_cases a <;> rfl

/-- The column of channel scales as one function of the weight, the two projections and the magnitude
    column: row o reads row o of the weight, of the up projection and of the magnitudes. -/
def scaleCol (w : S4096x4096.Idx → EReal) (a : S8x4096.Idx → EReal) (b : S4096x8.Idx → EReal)
    (g : S4096x1.Idx → EReal) : S4096x1.Idx → EReal := fun j =>
  chanScale (fun i => w (ix2 (j 0) i)) (fun r i => a (ix2 r i)) (fun r => b (ix2 (j 0) r)) (g j)

/-- The index maps over the 16 points: the row-blocked windows sit at block row t, the down projection
    is one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-! ## Each input block is rows of its array -/

/-- The weight's block at point t is its rows 256 t … 256 t + 255. -/
theorem weight_blk (c : Dev nD) (t : Fin cfg0.N) (y : S256x4096.Idx) (k : S4096x4096.Idx)
    (hk0 : (k 0).val = 256 * t.val + (y 0).val) (hk1 : (k 1).val = (y 1).val) :
    (iblk0 V c 0 t : Vec Ideal S256x4096 .f32) y = (V c main_arg2 : S4096x4096.Idx → EReal) k := by
  obtain ⟨e0, e1, -⟩ := idx_facts t
  unfold iblk0
  rw [View.read_apply]
  show V c main_arg2 _ = V c main_arg2 _
  congr 1
  funext a
  apply Fin.ext
  match a with
  | ⟨0, _⟩ => show win0_0.index t 0 * 256 + 1 * (y 0).val = (k 0).val; rw [e0, hk0]; omega
  | ⟨1, _⟩ => show win0_0.index t 1 * 4096 + 1 * (y 1).val = (k 1).val; rw [e1, hk1]; omega

/-- The down projection's block is the whole array at every point. -/
theorem down_blk (c : Dev nD) (t : Fin cfg0.N) (y : S8x4096.Idx) :
    (iblk0 V c 1 t : Vec Ideal S8x4096 .f32) y = (V c main_arg3 : S8x4096.Idx → EReal) y := by
  obtain ⟨-, -, e2, e3, -⟩ := idx_facts t
  unfold iblk0
  rw [View.read_apply]
  show V c main_arg3 _ = V c main_arg3 _
  congr 1
  funext a
  apply Fin.ext
  match a with
  | ⟨0, _⟩ => show win0_1.index t 0 * 8 + 1 * (y 0).val = (y 0).val; rw [e2]; omega
  | ⟨1, _⟩ => show win0_1.index t 1 * 4096 + 1 * (y 1).val = (y 1).val; rw [e3]; omega

/-- The up projection's block at point t is its rows 256 t … 256 t + 255. -/
theorem up_blk (c : Dev nD) (t : Fin cfg0.N) (y : S256x8.Idx) (k : S4096x8.Idx)
    (hk0 : (k 0).val = 256 * t.val + (y 0).val) (hk1 : (k 1).val = (y 1).val) :
    (iblk0 V c 2 t : Vec Ideal S256x8 .f32) y = (V c main_arg4 : S4096x8.Idx → EReal) k := by
  obtain ⟨-, -, -, -, e4, e5, -⟩ := idx_facts t
  unfold iblk0
  rw [View.read_apply]
  show V c main_arg4 _ = V c main_arg4 _
  congr 1
  funext a
  apply Fin.ext
  match a with
  | ⟨0, _⟩ => show win0_2.index t 0 * 256 + 1 * (y 0).val = (k 0).val; rw [e4, hk0]; omega
  | ⟨1, _⟩ => show win0_2.index t 1 * 8 + 1 * (y 1).val = (k 1).val; rw [e5, hk1]; omega

/-- The magnitude column's block at point t is its rows 256 t … 256 t + 255. -/
theorem mag_blk (c : Dev nD) (t : Fin cfg0.N) (y : S256x1.Idx) (k : S4096x1.Idx)
    (hk0 : (k 0).val = 256 * t.val + (y 0).val) (hk1 : (k 1).val = (y 1).val) :
    (iblk0 V c 3 t : Vec Ideal S256x1 .f32) y = (V c main_v0 : S4096x1.Idx → EReal) k := by
  obtain ⟨-, -, -, -, -, -, e6, e7, -⟩ := idx_facts t
  unfold iblk0
  rw [View.read_apply]
  show V c main_v0 _ = V c main_v0 _
  congr 1
  funext a
  apply Fin.ext
  match a with
  | ⟨0, _⟩ => show win0_3.index t 0 * 256 + 1 * (y 0).val = (k 0).val; rw [e6, hk0]; omega
  | ⟨1, _⟩ => show win0_3.index t 1 * 1 + 1 * (y 1).val = (k 1).val; rw [e7, hk1]; omega

/-! ## What a point writes back, and the array after the region -/

/-- Point t writes back block t of the scale column of the arrays as the region finds them. -/
theorem flushed_eq (c : Dev nD) (t : Fin cfg0.N) :
    (dat0 V c).flushed 4 t = ((cfg0.win 4).blk t).view.read (Elt Ideal)
      (scaleCol (V c main_arg2) (V c main_arg3) (V c main_arg4) (V c main_v0)) := by
  show (cfg0.win 4).cut (grid0.coords t) ((dat0 V c).after 4 t) = _
  rw [after0_4]
  unfold out0_4
  rw [View.canon_unit_zero zero_off]
  simp only [View.ld_unit_zero (S := S256x4096) zero_off, View.ld_unit_zero (S := S8x4096) zero_off,
    View.ld_unit_zero (S := S256x8) zero_off, View.ld_unit_zero (S := S256x1) zero_off]
  obtain ⟨-, -, -, -, -, -, -, -, e8, e9⟩ := idx_facts t
  funext j
  have hj1 : (j 1).val < 1 := (j 1).isLt
  show k0_pay1 (F := Ideal) (iblk0 V c 0 t) (iblk0 V c 1 t) (iblk0 V c 2 t) (iblk0 V c 3 t) j
    = scaleCol (V c main_arg2) (V c main_arg3) (V c main_arg4) (V c main_v0) (((cfg0.win 4).blk t).view.emb j)
  have hE0 : ((((cfg0.win 4).blk t).view.emb j) 0).val = 256 * t.val + (j 0).val := by
    show win0_4.index t 0 * 256 + 1 * (j 0).val = _; rw [e8]; omega
  have hE1 : ((((cfg0.win 4).blk t).view.emb j) 1).val = (j 1).val := by
    show win0_4.index t 1 * 1 + 1 * (j 1).val = _; rw [e9]; omega
  refine (congrArg (k0_pay1 (F := Ideal) (iblk0 V c 0 t) (iblk0 V c 1 t) (iblk0 V c 2 t) (iblk0 V c 3 t)) (eq_ix2 j)).trans ?_
  refine (NormBody.pay_apply (iblk0 V c 0 t) (iblk0 V c 1 t) (iblk0 V c 2 t) (iblk0 V c 3 t) (j 0) (j 1)).trans ?_
  unfold scaleCol
  have h1 : (fun i : Fin 4096 => (iblk0 V c 0 t : Vec Ideal S256x4096 .f32) (ix2 (j 0) i))
      = fun i => (V c main_arg2 : S4096x4096.Idx → EReal) (ix2 ((((cfg0.win 4).blk t).view.emb j) 0) i) :=
    funext fun i => weight_blk V c t (ix2 (j 0) i) _ hE0 rfl
  have h2 : (fun (r : Fin 8) (i : Fin 4096) => (iblk0 V c 1 t : Vec Ideal S8x4096 .f32) (ix2 r i))
      = fun r i => (V c main_arg3 : S8x4096.Idx → EReal) (ix2 r i) :=
    funext fun r => funext fun i => down_blk V c t (ix2 r i)
  have h3 : (fun r : Fin 8 => (iblk0 V c 2 t : Vec Ideal S256x8 .f32) (ix2 (j 0) r))
      = fun r => (V c main_arg4 : S4096x8.Idx → EReal) (ix2 ((((cfg0.win 4).blk t).view.emb j) 0) r) :=
    funext fun r => up_blk V c t (ix2 (j 0) r) _ hE0 rfl
  have h4 : (iblk0 V c 3 t : Vec Ideal S256x1 .f32) (ix2 (j 0) (j 1))
      = (V c main_v0 : S4096x1.Idx → EReal) (((cfg0.win 4).blk t).view.emb j) :=
    mag_blk V c t (ix2 (j 0) (j 1)) _ hE0 hE1
  rw [h1, h2, h3, h4]

/-- An index is in point t's block iff its row is among the block's 256 rows. -/
theorem mem_blk (t : Fin cfg0.N) (i : S4096x1.Idx) :
    i ∈ ((cfg0.win 4).blk t).view.set ↔ ∀ a : Fin 2, win0_4.index t a * S256x1.size a ≤ (i a).val ∧ (i a).val < win0_4.index t a * S256x1.size a + S256x1.size a := by
  show i ∈ ((View.whole main_v1).slice (win0_4.rect t)).set ↔ _
  rw [View.set_slice_whole, Rect.mem_set_unit]
  exact Iff.rfl

/-- Row o lies in the block of point o / 256. -/
theorem cover (i : S4096x1.Idx) : ∃ t : Fin cfg0.N, (cfg0.win 4).flush t = true ∧ i ∈ ((cfg0.win 4).blk t).view.set := by
  have hi0 : (i 0).val < 4096 := (i 0).isLt
  have hi1 : (i 1).val < 1 := (i 1).isLt
  have hN : cfg0.N = 16 := N_0
  have hlt : (i 0).val / 256 < cfg0.N := by rw [hN]; omega
  refine ⟨⟨(i 0).val / 256, hlt⟩, flush0_4 _, ?_⟩
  rw [mem_blk]
  obtain ⟨-, -, -, -, -, -, -, -, e8, e9⟩ := idx_facts ⟨(i 0).val / 256, hlt⟩
  intro a
  match a with
  | ⟨0, _⟩ =>
    show win0_4.index ⟨(i 0).val / 256, hlt⟩ 0 * 256 ≤ (i 0).val ∧ (i 0).val < win0_4.index ⟨(i 0).val / 256, hlt⟩ 0 * 256 + 256
    rw [e8]; show (i 0).val / 256 * 256 ≤ (i 0).val ∧ (i 0).val < (i 0).val / 256 * 256 + 256; omega
  | ⟨1, _⟩ =>
    show win0_4.index ⟨(i 0).val / 256, hlt⟩ 1 * 1 ≤ (i 1).val ∧ (i 1).val < win0_4.index ⟨(i 0).val / 256, hlt⟩ 1 * 1 + 1
    rw [e9]; omega

/-- After the region the output array is the scale column of the arrays as the region found them. -/
theorem final (c : Dev nD) : (dat0 V c).arrAt 4 cfg0.N
    = scaleCol (V c main_arg2) (V c main_arg3) (V c main_arg4) (V c main_v0) :=
  (dat0 V c).arrAt_eq_of_cover 4 _ (fun t _ => flushed_eq V c t) cover

end Cert.Dora.NormArray

end
-- ==== Proof.MainBody.lean ====
/-
  The main kernel's body at one entry.  On a block of 256 activation rows it projects down to rank 8,
  back up to 4096 channels, applies the gain, adds the base output and multiplies by the channel's scale,
  which it reads from a single row of 4096 scales repeated down the block: entry (p, o) of what it stores
  is the specification's entry for block row p and channel o.  The projections arrive transposed
  (4096 x 8 and 8 x 4096), so A[r, i] is read at (i, r) and B[o, r] at (r, o).
-/
import proofs.«155227_j14869176779243_1_alg».proof.Proof.Gen.KernelIdeal.Skeleton
import proofs.«155227_j14869176779243_1_alg».proof.Proof.Spec
import proofs.«155227_j14869176779243_1_alg».proof.Proof.Products
import Idealize.ShloMosaic.Lib.Pipeline.Value

noncomputable section

namespace Cert.Dora.MainBody

open Cert.KernelIdeal Cert.KernelIdeal.Gen Idealize.ShloMosaic Idealize.ShloMosaic.ValueIdx

/-- Repeating the 1 x 4096 scale row down 256 rows: entry (p, o) reads the row's entry (0, o). -/
theorem scale_row_apply (v : FVec Ideal S1x4096 .f32) (p : Fin 256) (o : Fin 4096) :
    broadcastTo S256x4096 v broadcasts_S1x4096_S256x4096 (ix2 p o) = v (ix2 (0 : Fin 1) o) :=
  broadcastTo_apply v broadcasts_S1x4096_S256x4096 (ix2 p o) (ix2 (0 : Fin 1) o) (fun a => by
    match a with
    | ⟨0, _⟩ => show 0 = if (1 : Nat) = 1 then 0 else _; rw [if_pos rfl]
    | ⟨1, _⟩ => show o.val = if (4096 : Nat) = 1 then 0 else o.val; rw [if_neg (by decide)])

/-- The stored value at (p, o): (base output + gain * adapter(row p)) * scale o.  The same-shape casts
    are identities and the changes of float format are the identity here, so the inner product's
    left factor is the first product itself. -/
theorem pay_apply (x0 x1 : Vec Ideal S256x4096 .f32) (x2 : Vec Ideal S4096x8 .f32) (x3 : Vec Ideal S8x4096 .f32)
    (x4 : Vec Ideal S1x4096 .f32) (p : Fin 256) (o : Fin 4096) :
    k1_pay1 (F := Ideal) x0 x1 x2 x3 x4 (ix2 p o)
      = entry (x1 (ix2 p o)) (adapter (fun i => x0 (ix2 p i)) (fun r i => x2 (ix2 i r)) (fun r => x3 (ix2 r o)))
          (x4 (ix2 (0 : Fin 1) o)) := by
  unfold k1_pay1
  simp only [shapeCast_self]
  rw [ValueIdx.mulf_apply, ValueIdx.addf_apply, ValueIdx.mulf_apply, Products.rank8_apply, scale_row_apply]
  unfold entry adapter
  refine congrArg (fun s => (x1 (ix2 p o) + s * _) * x4 _) (Finset.sum_congr rfl fun r _ => ?_)
  rw [ValueIdx.truncf_apply, ValueIdx.truncf_apply, Products.project_apply]
  rfl

end Cert.Dora.MainBody

end
-- ==== Proof.MainArray.lean ====
/-
  The main region's output array.  The grid's 32 points each write back a 256 x 4096 block computed from
  the same 256 rows of the flattened activations and of the flattened base output, and from three arrays
  read whole at every point: the transposed projections and the single row of channel scales.  Point t's
  blocks are rows 256 t … 256 t + 255, so what it writes is block t of ONE array: entry (n, o) from row n of
  the activations and of the base output, and column o of the up projection and of the scales.  The 32
  blocks tile the 8192 rows, so after the region the array is that function, whatever it held before.
  All of it is stated at the contents the region is entered with, left as a parameter.
-/
import proofs.«155227_j14869176779243_1_alg».proof.Proof.Gen.KernelIdeal.Frame
import proofs.«155227_j14869176779243_1_alg».proof.Proof.MainBody
import Idealize.ShloMosaic.Lib.Pipeline.Value

noncomputable section

open Idealize.ShloMosaic Idealize.ShloMosaic.TcCoe Idealize.SL.Sem
open Idealize.ShloMosaic.Pipeline (Dat)

namespace Cert.Dora.MainArray

open Cert.KernelIdeal Cert.KernelIdeal.Gen Idealize.ShloMosaic.ValueIdx

variable (V : (c : Dev nD) → (b : Ref sig .tc) → Buf (Elt Ideal) ((c : Thread nD τ).loc b))

theorem zero_off : (![0, 0] : Fin 2 → Nat) = fun _ => 0 := funext fun a => by fin_cases a <;> rfl

/-- The flattened result as one function of the flattened activations and base output, the transposed
    projections and the row of scales: entry (n, o) reads row n of the first two, column r of the
    transposed down projection, column o of the transposed up projection, and scale o. -/
def rows (x y : S8192x4096.Idx → EReal) (at' : S4096x8.Idx → EReal) (bt : S8x4096.Idx → EReal)
    (sc : S1x4096.Idx → EReal) : S8192x4096.Idx → EReal := fun j =>
  entry (y j) (adapter (fun i => x (ix2 (j 0) i)) (fun r i => at' (ix2 i r)) (fun r => bt (ix2 r (j 1))))
    (sc (ix2 (0 : Fin 1) (j 1)))

/-- The index maps over the 32 points: the row-blocked windows sit at block row t, the other three are
    one block each. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! ## Each input block is rows of its array, or the array itself -/

/-- The activations' block at point t is rows 256 t … 256 t + 255. -/
theorem act_blk (c : Dev nD) (t : Fin cfg1.N) (y : S256x4096.Idx) (k : S8192x4096.Idx)
    (hk0 : (k 0).val = 256 * t.val + (y 0).val) (hk1 : (k 1).val = (y 1).val) :
    (iblk1 V c 0 t : Vec Ideal S256x4096 .f32) y = (V c main_v3 : S8192x4096.Idx → EReal) k := by
  obtain ⟨e0, e1, -⟩ := idx_facts t
  unfold iblk1
  rw [View.read_apply]
  show V c main_v3 _ = V c main_v3 _
  congr 1
  funext a
  apply Fin.ext
  match a with
  | ⟨0, _⟩ => show win1_0.index t 0 * 256 + 1 * (y 0).val = (k 0).val; rw [e0, hk0]; omega
  | ⟨1, _⟩ => show win1_0.index t 1 * 4096 + 1 * (y 1).val = (k 1).val; rw [e1, hk1]; omega

/-- The base output's block at point t is rows 256 t … 256 t + 255. -/
theorem base_blk (c : Dev nD) (t : Fin cfg1.N) (y : S256x4096.Idx) (k : S8192x4096.Idx)
    (hk0 : (k 0).val = 256 * t.val + (y 0).val) (hk1 : (k 1).val = (y 1).val) :
    (iblk1 V c 1 t : Vec Ideal S256x4096 .f32) y = (V c main_v4 : S8192x4096.Idx → EReal) k := by
  obtain ⟨-, -, e2, e3, -⟩ := idx_facts t
  unfold iblk1
  rw [View.read_apply]
  show V c main_v4 _ = V c main_v4 _
  congr 1
  funext a
  apply Fin.ext
  match a with
  | ⟨0, _⟩ => show win1_1.index t 0 * 256 + 1 * (y 0).val = (k 0).val; rw [e2, hk0]; omega
  | ⟨1, _⟩ => show win1_1.index t 1 * 4096 + 1 * (y 1).val = (k 1).val; rw [e3, hk1]; omega

/-- The transposed down projection's block is the whole array at every point. -/
theorem downT_blk (c : Dev nD) (t : Fin cfg1.N) (y : S4096x8.Idx) :
    (iblk1 V c 2 t : Vec Ideal S4096x8 .f32) y = (V c main_v5 : S4096x8.Idx → EReal) y := by
  obtain ⟨-, -, -, -, e4, e5, -⟩ := idx_facts t
  unfold iblk1
  rw [View.read_apply]
  show V c main_v5 _ = V c main_v5 _
  congr 1
  funext a
  apply Fin.ext
  match a with
  | ⟨0, _⟩ => show win1_2.index t 0 * 4096 + 1 * (y 0).val = (y 0).val; rw [e4]; omega
  | ⟨1, _⟩ => show win1_2.index t 1 * 8 + 1 * (y 1).val = (y 1).val; rw [e5]; omega

/-- The transposed up projection's block is the whole array at every point. -/
theorem upT_blk (c : Dev nD) (t : Fin cfg1.N) (y : S8x4096.Idx) :
    (iblk1 V c 3 t : Vec Ideal S8x4096 .f32) y = (V c main_v6 : S8x4096.Idx → EReal) y := by
  obtain ⟨-, -, -, -, -, -, e6, e7, -⟩ := idx_facts t
  unfold iblk1
  rw [View.read_apply]
  show V c main_v6 _ = V c main_v6 _
  congr 1
  funext a
  apply Fin.ext
  match a with
  | ⟨0, _⟩ => show win1_3.index t 0 * 8 + 1 * (y 0).val = (y 0).val; rw [e6]; omega
  | ⟨1, _⟩ => show win1_3.index t 1 * 4096 + 1 * (y 1).val = (y 1).val; rw [e7]; omega

/-- The scale row's block is the whole row at every point. -/
theorem scale_blk (c : Dev nD) (t : Fin cfg1.N) (y : S1x4096.Idx) :
    (iblk1 V c 4 t : Vec Ideal S1x4096 .f32) y = (V c main_v2 : S1x4096.Idx → EReal) y := by
  obtain ⟨-, -, -, -, -, -, -, -, e8, e9, -⟩ := idx_facts t
  unfold iblk1
  rw [View.read_apply]
  show V c main_v2 _ = V c main_v2 _
  congr 1
  funext a
  apply Fin.ext
  match a with
  | ⟨0, _⟩ => show win1_4.index t 0 * 1 + 1 * (y 0).val = (y 0).val; rw [e8]; omega
  | ⟨1, _⟩ => show win1_4.index t 1 * 4096 + 1 * (y 1).val = (y 1).val; rw [e9]; omega

/-! ## What a point writes back, and the array after the region -/

/-- Point t writes back block t of `rows` of the arrays as the region finds them. -/
theorem flushed_eq (c : Dev nD) (t : Fin cfg1.N) :
    (dat1 V c).flushed 5 t = ((cfg1.win 5).blk t).view.read (Elt Ideal)
      (rows (V c main_v3) (V c main_v4) (V c main_v5) (V c main_v6) (V c main_v2)) := by
  show (cfg1.win 5).cut (grid1.coords t) ((dat1 V c).after 5 t) = _
  rw [after1_5]
  unfold out1_5
  rw [View.canon_unit_zero zero_off]
  simp only [View.ld_unit_zero (S := S256x4096) zero_off, View.ld_unit_zero (S := S4096x8) zero_off,
    View.ld_unit_zero (S := S8x4096) zero_off, View.ld_unit_zero (S := S1x4096) zero_off]
  obtain ⟨-, -, -, -, -, -, -, -, -, -, e10, e11⟩ := idx_facts t
  funext j
  show k1_pay1 (F := Ideal) (iblk1 V c 0 t) (iblk1 V c 1 t) (iblk1 V c 2 t) (iblk1 V c 3 t) (iblk1 V c 4 t) j
    = rows (V c main_v3) (V c main_v4) (V c main_v5) (V c main_v6) (V c main_v2) (((cfg1.win 5).blk t).view.emb j)
  have hE0 : ((((cfg1.win 5).blk t).view.emb j) 0).val = 256 * t.val + (j 0).val := by
    show win1_5.index t 0 * 256 + 1 * (j 0).val = _; rw [e10]; omega
  have hE1 : ((((cfg1.win 5).blk t).view.emb j) 1).val = (j 1).val := by
    show win1_5.index t 1 * 4096 + 1 * (j 1).val = _; rw [e11]; omega
  refine (congrArg (k1_pay1 (F := Ideal) (iblk1 V c 0 t) (iblk1 V c 1 t) (iblk1 V c 2 t) (iblk1 V c 3 t) (iblk1 V c 4 t)) (eq_ix2 j)).trans ?_
  refine (MainBody.pay_apply (iblk1 V c 0 t) (iblk1 V c 1 t) (iblk1 V c 2 t) (iblk1 V c 3 t) (iblk1 V c 4 t) (j 0) (j 1)).trans ?_
  unfold rows
  have hcol : (((cfg1.win 5).blk t).view.emb j) 1 = j 1 := Fin.ext hE1
  have h0 : (iblk1 V c 1 t : Vec Ideal S256x4096 .f32) (ix2 (j 0) (j 1))
      = (V c main_v4 : S8192x4096.Idx → EReal) (((cfg1.win 5).blk t).view.emb j) :=
    base_blk V c t (ix2 (j 0) (j 1)) _ hE0 hE1
  have h1 : (fun i : Fin 4096 => (iblk1 V c 0 t : Vec Ideal S256x4096 .f32) (ix2 (j 0) i))
      = fun i => (V c main_v3 : S8192x4096.Idx → EReal) (ix2 ((((cfg1.win 5).blk t).view.emb j) 0) i) :=
    funext fun i => act_blk V c t (ix2 (j 0) i) _ hE0 rfl
  have h2 : (fun (r : Fin 8) (i : Fin 4096) => (iblk1 V c 2 t : Vec Ideal S4096x8 .f32) (ix2 i r))
      = fun r i => (V c main_v5 : S4096x8.Idx → EReal) (ix2 i r) :=
    funext fun r => funext fun i => downT_blk V c t (ix2 i r)
  have h3 : (fun r : Fin 8 => (iblk1 V c 3 t : Vec Ideal S8x4096 .f32) (ix2 r (j 1)))
      = fun r => (V c main_v6 : S8x4096.Idx → EReal) (ix2 r ((((cfg1.win 5).blk t).view.emb j) 1)) :=
    funext fun r => by rw [hcol]; exact upT_blk V c t (ix2 r (j 1))
  have h4 : (iblk1 V c 4 t : Vec Ideal S1x4096 .f32) (ix2 (0 : Fin 1) (j 1))
      = (V c main_v2 : S1x4096.Idx → EReal) (ix2 (0 : Fin 1) ((((cfg1.win 5).blk t).view.emb j) 1)) := by
    rw [hcol]; exact scale_blk V c t (ix2 (0 : Fin 1) (j 1))
  rw [h0, h1, h2, h3, h4]

/-- An index is in point t's block iff its row is among the block's 256 rows. -/
theorem mem_blk (t : Fin cfg1.N) (i : S8192x4096.Idx) :
    i ∈ ((cfg1.win 5).blk t).view.set ↔ ∀ a : Fin 2, win1_5.index t a * S256x4096.size a ≤ (i a).val ∧ (i a).val < win1_5.index t a * S256x4096.size a + S256x4096.size a := by
  show i ∈ ((View.whole main_v7).slice (win1_5.rect t)).set ↔ _
  rw [View.set_slice_whole, Rect.mem_set_unit]
  exact Iff.rfl

/-- Row n lies in the block of point n / 256. -/
theorem cover (i : S8192x4096.Idx) : ∃ t : Fin cfg1.N, (cfg1.win 5).flush t = true ∧ i ∈ ((cfg1.win 5).blk t).view.set := by
  have hi0 : (i 0).val < 8192 := (i 0).isLt
  have hi1 : (i 1).val < 4096 := (i 1).isLt
  have hN : cfg1.N = 32 := N_1
  have hlt : (i 0).val / 256 < cfg1.N := by rw [hN]; omega
  refine ⟨⟨(i 0).val / 256, hlt⟩, flush1_5 _, ?_⟩
  rw [mem_blk]
  obtain ⟨-, -, -, -, -, -, -, -, -, -, e10, e11⟩ := idx_facts ⟨(i 0).val / 256, hlt⟩
  intro a
  match a with
  | ⟨0, _⟩ =>
    show win1_5.index ⟨(i 0).val / 256, hlt⟩ 0 * 256 ≤ (i 0).val ∧ (i 0).val < win1_5.index ⟨(i 0).val / 256, hlt⟩ 0 * 256 + 256
    rw [e10]; show (i 0).val / 256 * 256 ≤ (i 0).val ∧ (i 0).val < (i 0).val / 256 * 256 + 256; omega
  | ⟨1, _⟩ =>
    show win1_5.index ⟨(i 0).val / 256, hlt⟩ 1 * 4096 ≤ (i 1).val ∧ (i 1).val < win1_5.index ⟨(i 0).val / 256, hlt⟩ 1 * 4096 + 4096
    rw [e11]; omega

/-- After the region the output array is `rows` of the arrays as the region found them. -/
theorem final (c : Dev nD) : (dat1 V c).arrAt 5 cfg1.N
    = rows (V c main_v3) (V c main_v4) (V c main_v5) (V c main_v6) (V c main_v2) :=
  (dat1 V c).arrAt_eq_of_cover 5 _ (fun t _ => flushed_eq V c t) cover

end Cert.Dora.MainArray

end
-- ==== Proof.KernelValue.lean ====
/-
  The kernel program's result as the specification of its arguments.

  Around the two regions the host only re-lays arrays: the magnitudes become a 4096 x 1 column, the norm
  region's 4096 x 1 output becomes the 1 x 4096 scale row, activations and base output are flattened from
  4 x 2048 x 4096 to 8192 x 4096 (row 2048 p + s), the two projections are transposed, and the main
  region's 8192 x 4096 output is unflattened.  A reshape keeps an entry's row-major position and a
  transpose swaps its two coordinates, so entry (p, s, o) of the result is the specification's.

  The first half walks the buffer contents from launch to return along the generated boundaries; the
  second half is the pure statement about the re-laid arrays.
-/
import proofs.«155227_j14869176779243_1_alg».proof.Proof.Gen.KernelIdeal.Frame
import proofs.«155227_j14869176779243_1_alg».proof.Proof.NormArray
import proofs.«155227_j14869176779243_1_alg».proof.Proof.MainArray
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.Dora.KernelValue

open Cert.KernelIdeal Cert.KernelIdeal.Gen Idealize.ShloMosaic.ValueIdx Idealize.ShloMosaic.StableHlo

/-! ## The re-laid arrays compose to the specification -/

/-- Flattening 4 x 2048 x 4096 to 8192 x 4096 sends entry (p, s, i) to (2048 p + s, i). -/
theorem flat_apply (x : S4x2048x4096.Idx → EReal) (p : Fin 4) (s : Fin 2048) (i : Fin 4096) (n : Fin 8192)
    (hn : n.val = 2048 * p.val + s.val) :
    shapeCast S8192x4096 x shapeCasts_S4x2048x4096_S8192x4096 (ix2 n i) = x (ix3 p s i) :=
  shapeCast_apply x shapeCasts_S4x2048x4096_S8192x4096 (ix2 n i) (ix3 p s i)
    (by rw [Shape.rowMajor_val_three, Shape.rowMajor_val_two]
        show (p.val * 2048 + s.val) * 4096 + i.val = n.val * 4096 + i.val
        rw [hn]; ring)

/-- The transposed down projection at (i, r) is the projection at (r, i). -/
theorem downT_apply (a : S8x4096.Idx → EReal) (i : Fin 4096) (r : Fin 8) :
    transpose S4096x8 [1, 0] a transposes_S8x4096_S4096x8_1_0 (ix2 i r) = a (ix2 r i) :=
  transpose_apply [1, 0] a transposes_S8x4096_S4096x8_1_0 (ix2 i r) (ix2 r i)
    (fun b => by match b with | ⟨0, _⟩ => rfl | ⟨1, _⟩ => rfl)

/-- The transposed up projection at (r, o) is the projection at (o, r). -/
theorem upT_apply (b : S4096x8.Idx → EReal) (r : Fin 8) (o : Fin 4096) :
    transpose S8x4096 [1, 0] b transposes_S4096x8_S8x4096_1_0 (ix2 r o) = b (ix2 o r) :=
  transpose_apply [1, 0] b transposes_S4096x8_S8x4096_1_0 (ix2 r o) (ix2 o r)
    (fun d => by match d with | ⟨0, _⟩ => rfl | ⟨1, _⟩ => rfl)

/-- The magnitudes as a column: entry (o, 0) is magnitude o. -/
theorem magCol_apply (g : S4096.Idx → EReal) (o : Fin 4096) (q : Fin 1) :
    shapeCast S4096x1 g shapeCasts_S4096_S4096x1 (ix2 o q) = g (ix1 o) :=
  shapeCast_apply g shapeCasts_S4096_S4096x1 (ix2 o q) (ix1 o)
    (by rw [Shape.rowMajor_val_one, Shape.rowMajor_val_two]; show o.val = o.val * 1 + q.val; have := q.isLt; omega)

/-- The scale column as a row: entry (0, o) is the column's entry (o, 0). -/
theorem scaleRow_apply (v : S4096x1.Idx → EReal) (o : Fin 4096) :
    shapeCast S1x4096 v shapeCasts_S4096x1_S1x4096 (ix2 (0 : Fin 1) o) = v (ix2 o (0 : Fin 1)) :=
  shapeCast_apply v shapeCasts_S4096x1_S1x4096 (ix2 (0 : Fin 1) o) (ix2 o (0 : Fin 1))
    (by rw [Shape.rowMajor_val_two, Shape.rowMajor_val_two]; show o.val * 1 + 0 = 0 * 4096 + o.val; omega)

/-- Unflattening, flattened rows, transposed projections and the re-laid scales: entry (p, s, o) is the
    specification's entry of the six arguments. -/
theorem relaid_eq (x y : S4x2048x4096.Idx → EReal) (w : S4096x4096.Idx → EReal) (a : S8x4096.Idx → EReal)
    (b : S4096x8.Idx → EReal) (g : S4096.Idx → EReal) :
    shapeCast S4x2048x4096
      (MainArray.rows (shapeCast S8192x4096 x shapeCasts_S4x2048x4096_S8192x4096)
        (shapeCast S8192x4096 y shapeCasts_S4x2048x4096_S8192x4096)
        (transpose S4096x8 [1, 0] a transposes_S8x4096_S4096x8_1_0)
        (transpose S8x4096 [1, 0] b transposes_S4096x8_S8x4096_1_0)
        (shapeCast S1x4096 (NormArray.scaleCol w a b (shapeCast S4096x1 g shapeCasts_S4096_S4096x1)) shapeCasts_S4096x1_S1x4096))
      shapeCasts_S8192x4096_S4x2048x4096
    = result x y w a b g := by
  funext j
  have h0 : (j 0).val < 4 := (j 0).isLt
  have h1 : (j 1).val < 2048 := (j 1).isLt
  have hn : 2048 * (j 0).val + (j 1).val < 8192 := by omega
  rw [shapeCast_apply _ shapeCasts_S8192x4096_S4x2048x4096 j (ix2 (⟨2048 * (j 0).val + (j 1).val, hn⟩ : Fin 8192) (j 2))
    (by rw [Shape.rowMajor_val_two, Shape.rowMajor_val_three]
        show (2048 * (j 0).val + (j 1).val) * 4096 + (j 2).val = ((j 0).val * 2048 + (j 1).val) * 4096 + (j 2).val
        ring)]
  unfold MainArray.rows result
  have hy : shapeCast S8192x4096 y shapeCasts_S4x2048x4096_S8192x4096 (ix2 (⟨2048 * (j 0).val + (j 1).val, hn⟩ : Fin 8192) (j 2)) = y j :=
    (flat_apply y (j 0) (j 1) (j 2) _ rfl).trans (congrArg y (eq_ix3 j).symm)
  have hx : (fun i : Fin 4096 => shapeCast S8192x4096 x shapeCasts_S4x2048x4096_S8192x4096 (ix2 (⟨2048 * (j 0).val + (j 1).val, hn⟩ : Fin 8192) i))
      = fun i => x (ix3 (j 0) (j 1) i) := funext fun i => flat_apply x (j 0) (j 1) i _ rfl
  have ha : (fun (r : Fin 8) (i : Fin 4096) => transpose S4096x8 [1, 0] a transposes_S8x4096_S4096x8_1_0 (ix2 i r))
      = fun r i => a (ix2 r i) := funext fun r => funext fun i => downT_apply a i r
  have hb : (fun r : Fin 8 => transpose S8x4096 [1, 0] b transposes_S4096x8_S8x4096_1_0 (ix2 r (j 2)))
      = fun r => b (ix2 (j 2) r) := funext fun r => upT_apply b r (j 2)
  have hs : shapeCast S1x4096 (NormArray.scaleCol w a b (shapeCast S4096x1 g shapeCasts_S4096_S4096x1)) shapeCasts_S4096x1_S1x4096 (ix2 (0 : Fin 1) (j 2))
      = chanScale (fun i => w (ix2 (j 2) i)) (fun r i => a (ix2 r i)) (fun r => b (ix2 (j 2) r)) (g (ix1 (j 2))) :=
    (scaleRow_apply _ (j 2)).trans
      (congrArg (chanScale (fun i => w (ix2 (j 2) i)) (fun r i => a (ix2 r i)) (fun r => b (ix2 (j 2) r)))
        (magCol_apply g (j 2) (0 : Fin 1)))
  show entry (shapeCast S8192x4096 y shapeCasts_S4x2048x4096_S8192x4096 (ix2 (⟨2048 * (j 0).val + (j 1).val, hn⟩ : Fin 8192) (j 2)))
      (adapter (fun i => shapeCast S8192x4096 x shapeCasts_S4x2048x4096_S8192x4096 (ix2 (⟨2048 * (j 0).val + (j 1).val, hn⟩ : Fin 8192) i))
        (fun r i => transpose S4096x8 [1, 0] a transposes_S8x4096_S4096x8_1_0 (ix2 i r))
        (fun r => transpose S8x4096 [1, 0] b transposes_S4096x8_S8x4096_1_0 (ix2 r (j 2))))
      (shapeCast S1x4096 (NormArray.scaleCol w a b (shapeCast S4096x1 g shapeCasts_S4096_S4096x1)) shapeCasts_S4096x1_S1x4096 (ix2 (0 : Fin 1) (j 2)))
    = _
  exact congr (congr (congrArg entry hy) (congr (congr (congrArg adapter hx) ha) hb)) hs

/-! ## The buffer contents from launch to return -/

section Walk

variable (m : (ℓ : Loc nD τ sig) → Buf (Elt Ideal) ℓ) (ρ : Dev nD → PrngReg)

/-- The norm region finds the weight, the two projections as launched, and the magnitudes as a column. -/
theorem in0_weight (c : Dev nD) : V1 m ρ c main_arg2 = m ((c : Thread nD τ).loc main_arg2) := by
  show StableHlo.after hostOps0 (W0 m ρ c) (Proc.devRef .tc main_arg2) = _
  after_results
theorem in0_down (c : Dev nD) : V1 m ρ c main_arg3 = m ((c : Thread nD τ).loc main_arg3) := by
  show StableHlo.after hostOps0 (W0 m ρ c) (Proc.devRef .tc main_arg3) = _
  after_results
theorem in0_up (c : Dev nD) : V1 m ρ c main_arg4 = m ((c : Thread nD τ).loc main_arg4) := by
  show StableHlo.after hostOps0 (W0 m ρ c) (Proc.devRef .tc main_arg4) = _
  after_results
theorem in0_mag (c : Dev nD) :
    V1 m ρ c main_v0 = shapeCast S4096x1 (m ((c : Thread nD τ).loc main_arg5)) shapeCasts_S4096_S4096x1 := by
  show StableHlo.after hostOps0 (W0 m ρ c) (Proc.devRef .tc main_v0) = _
  after_results
  rfl

/-- It leaves the scale column of the launch contents in its output array, -/
theorem out0_scale (c : Dev nD) : W2 m ρ c (Proc.devRef .tc main_v1)
    = NormArray.scaleCol (m ((c : Thread nD τ).loc main_arg2)) (m ((c : Thread nD τ).loc main_arg3))
        (m ((c : Thread nD τ).loc main_arg4))
        (shapeCast S4096x1 (m ((c : Thread nD τ).loc main_arg5)) shapeCasts_S4096_S4096x1) :=
  (W2_arr m ρ c 4).trans ((NormArray.final (V1 m ρ) c).trans (by rw [in0_weight, in0_down, in0_up, in0_mag]))

/-- and every array the main region's re-layings read as launched. -/
theorem out0_act (c : Dev nD) : W2 m ρ c (Proc.devRef .tc main_arg0) = m ((c : Thread nD τ).loc main_arg0) :=
  (W2_of_ne m ρ c main_arg0 (by decide)).trans (by
    show StableHlo.after hostOps0 (W0 m ρ c) (Proc.devRef .tc main_arg0) = _
    after_results)
theorem out0_base (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results)
theorem out0_down (c : Dev nD) : W2 m ρ c (Proc.devRef .tc main_arg3) = m ((c : Thread nD τ).loc main_arg3) :=
  ((W2_arr m ρ c 1).trans (((dat0 (V1 m ρ) c).arrAt_in 1 rfl _).trans (A_eq0 (V1 m ρ) c 1))).trans (in0_down m ρ c)
theorem out0_up (c : Dev nD) : W2 m ρ c (Proc.devRef .tc main_arg4) = m ((c : Thread nD τ).loc main_arg4) :=
  ((W2_arr m ρ c 2).trans (((dat0 (V1 m ρ) c).arrAt_in 2 rfl _).trans (A_eq0 (V1 m ρ) c 2))).trans (in0_up m ρ c)

/-- The main region finds the flattened activations and base output, the transposed projections and the
    scale row. -/
theorem in1_act (c : Dev nD) : V3 m ρ c main_v3
    = shapeCast S8192x4096 (m ((c : Thread nD τ).loc main_arg0)) shapeCasts_S4x2048x4096_S8192x4096 := by
  show StableHlo.after hostOps1 (W2 m ρ c) (Proc.devRef .tc main_v3) = _
  after_results
  rw [out0_act]
  rfl
theorem in1_base (c : Dev nD) : V3 m ρ c main_v4
    = shapeCast S8192x4096 (m ((c : Thread nD τ).loc main_arg1)) shapeCasts_S4x2048x4096_S8192x4096 := by
  show StableHlo.after hostOps1 (W2 m ρ c) (Proc.devRef .tc main_v4) = _
  after_results
  rw [out0_base]
  rfl
theorem in1_downT (c : Dev nD) : V3 m ρ c main_v5
    = transpose S4096x8 [1, 0] (m ((c : Thread nD τ).loc main_arg3)) transposes_S8x4096_S4096x8_1_0 := by
  show StableHlo.after hostOps1 (W2 m ρ c) (Proc.devRef .tc main_v5) = _
  after_results
  rw [out0_down]
theorem in1_upT (c : Dev nD) : V3 m ρ c main_v6
    = transpose S8x4096 [1, 0] (m ((c : Thread nD τ).loc main_arg4)) transposes_S4096x8_S8x4096_1_0 := by
  show StableHlo.after hostOps1 (W2 m ρ c) (Proc.devRef .tc main_v6) = _
  after_results
  rw [out0_up]
theorem in1_scale (c : Dev nD) : V3 m ρ c main_v2
    = shapeCast S1x4096 (NormArray.scaleCol (m ((c : Thread nD τ).loc main_arg2)) (m ((c : Thread nD τ).loc main_arg3))
        (m ((c : Thread nD τ).loc main_arg4))
        (shapeCast S4096x1 (m ((c : Thread nD τ).loc main_arg5)) shapeCasts_S4096_S4096x1)) shapeCasts_S4096x1_S1x4096 := by
  show StableHlo.after hostOps1 (W2 m ρ c) (Proc.devRef .tc main_v2) = _
  after_results
  rw [out0_scale]
  rfl

/-- It leaves `rows` of those in its output array; unflattened, that is the specification of the launch
    contents. -/
theorem at_return (c : Dev nD) : W5 m ρ c (Proc.devRef .tc main_v8)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  have hout : W4 m ρ c (Proc.devRef .tc main_v7) = _ :=
    (W4_arr m ρ c 5).trans ((MainArray.final (V3 m ρ) c).trans (by rw [in1_act, in1_base, in1_downT, in1_upT, in1_scale]))
  show StableHlo.after hostOps2 (W4 m ρ c) (Proc.devRef .tc main_v8) = _
  after_results
  rw [hout]
  exact relaid_eq _ _ _ _ _ _

end Walk

end Cert.Dora.KernelValue

end
-- ==== Proof.lean ====
/-
  A low-rank adapter with magnitude rescaling on a 4096 x 4096 linear layer, two kernels against jnp.

  Both programs compute, for activations x and base output y of shape 4 x 2048 x 4096, weight W, down
  projection A (8 x 4096), up projection B (4096 x 8) and magnitudes g,

      out[p, s, o] = (y[p, s, o] + 2 * sum_r (sum_i x[p, s, i] * A[r, i]) * B[o, r]) * scale[o],
      scale[o]     = g[o] / (sqrt (sum_i (W[o, i] + 2 * sum_r B[o, r] * A[r, i])^2) + eps).

  The reference does it with whole-array operations.  The kernel program computes the 4096 scales in a first
  region, 256 channels per grid point, and the result in a second, 256 flattened rows per grid point, with
  reshapes and transposes between them.  Read over the extended reals, where a change of float format is the
  identity, the two agree operation by operation: the same products in the same association, the same
  literals for 2 and eps, sums that differ only in how their finitely many terms are laid out.  So the
  equality needs no algebraic law beyond re-indexing a finite sum, and the precondition is never opened.

  The pieces: Spec (the formulas over plain rows), RefValue (the reference is the formulas), Products (a
  product accumulated from zero is the plain sum), NormBody / MainBody (each kernel body at an entry),
  NormArray / MainArray (each region's output array from its blocks), KernelValue (the re-layings and the
  contents from launch to return), KernelRun (the run with the result array read).  The kernels' idealization
  rewrote nothing, so its soundness statement is trivial.
-/
import proofs.«155227_j14869176779243_1_alg».proof.Defs
import proofs.«155227_j14869176779243_1_alg».proof.Proof.Gen.Kernel
import proofs.«155227_j14869176779243_1_alg».proof.Proof.Gen.Kernel.Skeleton
import proofs.«155227_j14869176779243_1_alg».proof.Proof.Gen.Kernel.Launch
import proofs.«155227_j14869176779243_1_alg».proof.Proof.Gen.Kernel.Points
import proofs.«155227_j14869176779243_1_alg».proof.Proof.Gen.Kernel.Frame
import proofs.«155227_j14869176779243_1_alg».proof.Proof.Gen.KernelIdeal
import proofs.«155227_j14869176779243_1_alg».proof.Proof.Gen.KernelIdeal.Skeleton
import proofs.«155227_j14869176779243_1_alg».proof.Proof.Gen.KernelIdeal.Launch
import proofs.«155227_j14869176779243_1_alg».proof.Proof.Gen.KernelIdeal.Points
import proofs.«155227_j14869176779243_1_alg».proof.Proof.Gen.KernelIdeal.Frame
import proofs.«155227_j14869176779243_1_alg».proof.Proof.Gen.ReferenceIdeal
import proofs.«155227_j14869176779243_1_alg».proof.Proof.Gen.ReferenceIdeal.Run
import proofs.«155227_j14869176779243_1_alg».proof.Proof.Gen.ReferenceIdeal.Read
import proofs.«155227_j14869176779243_1_alg».proof.Proof.Gen.Pre_finite_inputs
import proofs.«155227_j14869176779243_1_alg».proof.Proof.RefValue
import proofs.«155227_j14869176779243_1_alg».proof.Proof.KernelRun
import proofs.«155227_j14869176779243_1_alg».proof.Proof.KernelValue
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the kernel program read over the extended reals. -/
theorem frame_ideal : Cert.frame_KernelIdeal := fun m ρ _ => Cert.KernelIdeal.Gen.frame m ρ

/-- The reference is a straight line of host operations: its run, with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- Nothing was rewritten when the kernel program was printed for the extended reals. -/
theorem preserves : Cert.preserves_Kernel_KernelIdeal := trivial

/-- From memories that agree on the six arguments both programs end with the specification of those
    arguments in their result array: the kernel program by the walk through its two regions, the reference
    stage by stage. -/
theorem algebraic : Cert.algebraic_KernelIdeal_ReferenceIdeal := by
  intro m ρ m' ρ' _ hagree
  refine ⟨fun c => Cert.Dora.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.Dora.KernelValue.at_return m ρ c), (h c).2⟩)
      (Cert.KernelIdeal.Rerun.run_result m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5⟩ := hagree c
    rw [e0, e1, e2, e3, e4, e5]
    exact (Cert.ReferenceIdeal.Read.val_main_v15_eq _ _ _ _ _ _).trans (Cert.Dora.Ref.result_eq _ _ _ _ _ _)

theorem claim : Cert.Claim :=
  ⟨Cert.Kernel.Gen.facts, Cert.KernelIdeal.Gen.facts, Cert.ReferenceIdeal.Gen.facts, Cert.Pre_finite_inputs.Gen.facts,
    frame_kernel, frame_ideal, frame_ref, preserves, algebraic⟩

end Cert.Proof

end
